-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x100 : Shape := ⟨2, ![100000, 100]⟩
abbrev S2x1600000 : Shape := ⟨2, ![2, 1600000]⟩
abbrev S100x64 : Shape := ⟨2, ![100, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x100 : S_.BroadcastsInDim S100000x100 (![] : Fin 0 → Fin S100000x100.rank)
  reducesTo_S100000x100_S_d0_1 : S100000x100.ReducesTo [0, 1] S_
  h_S_ : 0 < S_.numel
  bcast_S_S100x64 : S_.BroadcastsInDim S100x64 (![] : Fin 0 → Fin S100x64.rank)
  reducesTo_S100x64_S_d0_1 : S100x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x100 .f32) (main_arg1 : IVec S2x1600000 32) (main_arg2 : FVec F S100x64 .f32) (main_arg3 : FVec F S64 .f32) (main_arg4 : FVec F S64x32 .f32) (main_arg5 : FVec F S32 .f32) : IVec S_ 1 :=
  let main_v0 : FVec F S100000x100 .f32 := Host.absf main_arg0
  let main_cst : FVec F S_ .f32 := constant S_ .f32 0x7F800000#32
  let main_v1 : FVec F S100000x100 .f32 := broadcastInDim S100000x100 ![] bcast_S_S100000x100 main_cst
  let main_v2 : IVec S100000x100 1 := cmpf .olt main_v0 main_v1
  let main_c : IVec S_ 1 := constantI S_ 1 1#1
  let main_v3 : IVec S_ 1 := (fun x v => Host.reduce IntOp.andi x v reducesTo_S100000x100_S_d0_1 h_S_) main_v2 main_c
  let main_v4 : FVec F S100x64 .f32 := Host.absf main_arg2
  let main_cst_0 : FVec F S_ .f32 := constant S_ .f32 0x7F800000#32
  let main_v5 : FVec F S100x64 .f32 := broadcastInDim S100x64 ![] bcast_S_S100x64 main_cst_0
  let main_v6 : IVec S100x64 1 := cmpf .olt main_v4 main_v5
  let main_c_1 : IVec S_ 1 := constantI S_ 1 1#1
  let main_v7 : IVec S_ 1 := (fun x v => Host.reduce IntOp.andi x v reducesTo_S100x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x100 : Shape := ⟨2, ![100000, 100]⟩
abbrev S2x1600000 : Shape := ⟨2, ![2, 1600000]⟩
abbrev S100x64 : Shape := ⟨2, ![100, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x100 : Shape := ⟨2, ![5000, 100]⟩
abbrev S5000x64 : Shape := ⟨2, ![5000, 64]⟩
abbrev S1700000x64 : Shape := ⟨2, ![1700000, 64]⟩
abbrev S1x64 : Shape := ⟨2, ![1, 64]⟩
abbrev S100000x32 : Shape := ⟨2, ![100000, 32]⟩
abbrev S5000x32 : Shape := ⟨2, ![5000, 32]⟩
abbrev S1700000x32 : Shape := ⟨2, ![1700000, 32]⟩
abbrev S1x32 : Shape := ⟨2, ![1, 32]⟩

abbrev nBuf : Space → Nat
  | .hbm => 108
  | .vmem => 10
  | .smem => 0
  | _ => 0

abbrev bufTy : (tb : Table) → Fin (tcTables nBuf tb) → BufTy
  | .hbm, ⟨0, _⟩ => ⟨S100000x100, .f32⟩
  | .hbm, ⟨1, _⟩ => ⟨S2x1600000, .i32⟩
  | .hbm, ⟨2, _⟩ => ⟨S100x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x64, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1700000, .f32⟩
  | .hbm, ⟨88, _⟩ => ⟨S1700000, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000x32, .f32⟩
  | .hbm, ⟨98, _⟩ => ⟨S1700000x1, .f32⟩
  | .hbm, ⟨99, _⟩ => ⟨S1700000x32, .f32⟩
  | .hbm, ⟨100, _⟩ => ⟨S1700000x32, .f32⟩
  | .hbm, ⟨101, _⟩ => ⟨S_, .f32⟩
  | .hbm, ⟨102, _⟩ => ⟨S100000x32, .f32⟩
  | .hbm, ⟨103, _⟩ => ⟨S1700000x1, .i32⟩
  | .hbm, ⟨104, _⟩ => ⟨S100000x32, .f32⟩
  | .hbm, ⟨105, _⟩ => ⟨S1x32, .f32⟩
  | .hbm, ⟨106, _⟩ => ⟨S100000x32, .f32⟩
  | .hbm, ⟨107, _⟩ => ⟨S100000x32, .f32⟩
  | .local _ .vmem, ⟨0, _⟩ => ⟨S5000x100, .f32⟩
  | .local _ .vmem, ⟨1, _⟩ => ⟨S5000x100, .f32⟩
  | .local _ .vmem, ⟨2, _⟩ => ⟨S100x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x32, .f32⟩
  | .local _ .vmem, ⟨8, _⟩ => ⟨S5000x32, .f32⟩
  | .local _ .vmem, ⟨9, _⟩ => ⟨S5000x32, .f32⟩
  | _, _ => ⟨S100000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x100_S5000x100_0_0 : ∀ a, (![0, 0] : Fin 2 → Nat) a + S5000x100.size a ≤ S5000x100.size a
  h_S5000x100 : 0 < S5000x100.numel
  bitsLt_bf16_f32 : FTy.bits .bf16 < FTy.bits .f32
  inb_S100x64_S100x64_0_0 : ∀ a, (![0, 0] : Fin 2 → Nat) a + S100x64.size a ≤ S100x64.size a
  h_S100x64 : 0 < S100x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  dot_S5000x100_S100x64_S5000x64_1_0_0_1_n_n_wf : DotDims.WF S5000x100 S100x64 S5000x64 [1] [0] [0] [1] [] []
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x32_S5000x32_1_0_0_1_n_n_wf : DotDims.WF S5000x64 S64x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x100.size a ≤ S100000x100.size a
  hwx0_0 : ∀ i : grid0.Coords, EltTy.bits .f32 = 32 ∨ (Rect.block (s := S100000x100) S5000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x64.size a ≤ S100x64.size a
  hwx0_1 : ∀ i : grid0.Coords, EltTy.bits .f32 = 32 ∨ (Rect.block (s := S100x64) S100x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x100_S100x64_S5000x64_1_0_0_1_n_n : DotDims S5000x100 S100x64 S5000x64 where
  lhsContracting := [1]
  rhsContracting := [0]
  lhsNonContracting := [0]
  rhsNonContracting := [1]
  lhsBatch := []
  rhsBatch := []
  wf := dot_S5000x100_S100x64_S5000x64_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S5000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S100x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x100 : Shape := ⟨2, ![100000, 100]⟩
abbrev S2x1600000 : Shape := ⟨2, ![2, 1600000]⟩
abbrev S100x64 : Shape := ⟨2, ![100, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 122
  | .vmem => 0
  | .smem => 0
  | _ => 0

abbrev bufTy : (tb : Table) → Fin (tcTables nBuf tb) → BufTy
  | .hbm, ⟨0, _⟩ => ⟨S100000x100, .f32⟩
  | .hbm, ⟨1, _⟩ => ⟨S2x1600000, .i32⟩
  | .hbm, ⟨2, _⟩ => ⟨S100x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x64, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x32, .f32⟩
  | .hbm, ⟨112, _⟩ => ⟨S1700000x1, .f32⟩
  | .hbm, ⟨113, _⟩ => ⟨S1700000x32, .f32⟩
  | .hbm, ⟨114, _⟩ => ⟨S1700000x32, .f32⟩
  | .hbm, ⟨115, _⟩ => ⟨S_, .f32⟩
  | .hbm, ⟨116, _⟩ => ⟨S100000x32, .f32⟩
  | .hbm, ⟨117, _⟩ => ⟨S1700000x1, .i32⟩
  | .hbm, ⟨118, _⟩ => ⟨S100000x32, .f32⟩
  | .hbm, ⟨119, _⟩ => ⟨S1x32, .f32⟩
  | .hbm, ⟨120, _⟩ => ⟨S100000x32, .f32⟩
  | .hbm, ⟨121, _⟩ => ⟨S100000x32, .f32⟩
  | _, _ => ⟨S100000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x100_S100x64_S100000x64_1_0_0_1_n_n_wf : DotDims.WF S100000x100 S100x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def dot_S100000x100_S100x64_S100000x64_1_0_0_1_n_n : DotDims S100000x100 S100x64 S100000x64 where
  lhsContracting := [1]
  rhsContracting := [0]
  lhsNonContracting := [0]
  rhsNonContracting := [1]
  lhsBatch := []
  rhsBatch := []
  wf := dot_S100000x100_S100x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.Gcn.lean ====
/-
  The two-layer graph convolution both programs compute, with the two dense node projections left as parameters.

  The graph has 100000 nodes and 1600000 edges given as a 2 × 1600000 list of (source, destination) node numbers; one
  self loop per node is appended, so there are 1700000 edge slots. With deg[n] the number of slots whose destination is n
  (a scatter-add of ones) and dinv[n] = deg[n]^(-1/2) where deg[n] > 0 and 0 elsewhere, a layer takes node features h
  (already projected by the layer's weight) to

      out[n, f] = ( Σ over slots e with destination n of  h[source e, f] · dinv[source e] · dinv[destination e] ) + b[f]

  — a row gather by source, a scale by the slot's norm, a scatter-add by destination, a bias. The first layer ends in a
  rectifier, max(·, 0). A node number below zero is moved up by the node count before a gather, as the indexing
  convention of the source language asks; what a gather or scatter does with a number still out of range is the host
  operation's own rule, the same on both sides, and is never opened here.

  Every definition below is one host operation, or a few, applied to its operands: the statement that both programs
  compute `forward` — each with its own two projections — is an identity of terms, and the only mathematics left is that
  the projections agree.
-/
import proofs.«155514_j79388175499492_1_alg».proof.Proof.Gen.ReferenceIdeal

noncomputable section

namespace Cert.Gcn

open Cert.ReferenceIdeal Cert.ReferenceIdeal.Gen Idealize.ShloMosaic

variable {F : FTy → Type} [FloatOps F]

/-- An integer array and a float array of a literal shape. -/
abbrev Ints (F : FTy → Type) (S : Shape) : Type := (⟨S, .i32⟩ : BufTy).Contents (Elt F)
abbrev Floats (F : FTy → Type) (S : Shape) : Type := (⟨S, .f32⟩ : BufTy).Contents (Elt F)

/-- The source of every edge slot: row 0 of the edge list, then the self loops 0 … 99999. -/
def sources (ei : Ints F S2x1600000) : Ints F S1700000 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The destination of every edge slot: row 1 of the edge list, then the self loops 0 … 99999. -/
def destinations (ei : Ints F S2x1600000) : Ints F S1700000 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- A node number below zero counted from the end: n + 100000 where n < 0, n elsewhere. -/
def fromEnd (s : Ints F S1700000) : Ints F S1700000 :=
  select (cmpi .slt s (broadcastInDim S1700000 ![] bcast_S_S1700000 (constantI S_ 32 0#32))) (addi s (broadcastInDim S1700000 ![] bcast_S_S1700000 (constantI S_ 32 100000#32))) s

/-- deg[n]: the number of edge slots whose destination is n, as a scatter-add of ones onto zeros. -/
def degree (dst : Ints F S1700000) : Floats F S100000 :=
  Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32))

/-- dinv[n] = deg[n]^(-1/2) where deg[n] > 0, and 0 elsewhere. -/
def invSqrtDegree (dst : Ints F S1700000) : Floats F S100000 :=
  select (cmpf (F := F) .ogt (degree dst) (broadcastInDim S100000 ![] bcast_S_S100000 (constant S_ .f32 0x00000000#32))) (Host.rsqrt (degree dst)) (broadcastInDim S100000 ![] bcast_S_S100000 (id (constant S_ .f32 0x00000000#32)))

/-- The norm of every edge slot: dinv at its source times dinv at its destination. -/
def slotNorm (src dst : Ints F S1700000) (dinv : Floats F S100000) : Floats F S1700000 :=
  mulf (Host.gather gather_S100000_S1700000x1_S1700000_n_0_n_n_0_1_1 dinv (broadcastInDim S1700000x1 ![0] bcast_S1700000_S1700000x1_0 (fromEnd src))) (Host.gather gather_S100000_S1700000x1_S1700000_n_0_n_n_0_1_1 dinv (broadcastInDim S1700000x1 ![0] bcast_S1700000_S1700000x1_0 (fromEnd dst)))

/-- The first layer after its projection `h`: gather the sources' rows, scale each by its slot's norm, add them up by
    destination, add the bias, rectify. 64 features. -/
def layer64 (h : Floats F S100000x64) (src dst : Ints F S1700000) (dinv : Floats F S100000) (b : Floats F S64) : Floats F S100000x64 :=
  maximumf (addf (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 dst) (mulf (Host.gather gather_S100000x64_S1700000x1_S1700000x64_1_0_n_n_0_1_164 h (broadcastInDim S1700000x1 ![0] bcast_S1700000_S1700000x1_0 (fromEnd src))) (broadcastInDim S1700000x64 ![0, 1] bcast_S1700000x1_S1700000x64_0_1 (broadcastInDim S1700000x1 ![0] bcast_S1700000_S1700000x1_0 (slotNorm src dst dinv))))) (broadcastInDim S100000x64 ![0, 1] bcast_S1x64_S100000x64_0_1 (broadcastInDim S1x64 ![1] bcast_S64_S1x64_1 b))) (broadcastInDim S100000x64 ![] bcast_S_S100000x64 (constant S_ .f32 0x00000000#32))

/-- The second layer after its projection `h`: the same aggregation over 32 features, no rectifier. -/
def layer32 (h : Floats F S100000x32) (src dst : Ints F S1700000) (dinv : Floats F S100000) (b : Floats F S32) : Floats F S100000x32 :=
  addf (Host.scatterAdd scatter_S100000x32_S1700000x1_S1700000x32_1_0_0_1 (broadcastInDim S100000x32 ![] bcast_S_S100000x32 (constant S_ .f32 0x00000000#32)) (broadcastInDim S1700000x1 ![0] bcast_S1700000_S1700000x1_0 dst) (mulf (Host.gather gather_S100000x32_S1700000x1_S1700000x32_1_0_n_n_0_1_132 h (broadcastInDim S1700000x1 ![0] bcast_S1700000_S1700000x1_0 (fromEnd src))) (broadcastInDim S1700000x32 ![0, 1] bcast_S1700000x1_S1700000x32_0_1 (broadcastInDim S1700000x1 ![0] bcast_S1700000_S1700000x1_0 (slotNorm src dst dinv))))) (broadcastInDim S100000x32 ![0, 1] bcast_S1x32_S100000x32_0_1 (broadcastInDim S1x32 ![1] bcast_S32_S1x32_1 b))

/-- The whole network over two dense projections `p1` (100 → 64 features) and `p2` (64 → 32 features). -/
def forward (p1 : Floats F S100000x100 → Floats F S100x64 → Floats F S100000x64) (p2 : Floats F S100000x64 → Floats F S64x32 → Floats F S100000x32)
    (x : Floats F S100000x100) (ei : Ints F S2x1600000) (w1 : Floats F S100x64) (b1 : Floats F S64) (w2 : Floats F S64x32) (b2 : Floats F S32) : Floats F S100000x32 :=
  layer32 (p2 (layer64 (p1 x w1) (sources ei) (destinations ei) (invSqrtDegree (destinations ei)) b1) w2) (sources ei) (destinations ei) (invSqrtDegree (destinations ei)) b2

end Cert.Gcn

end
-- ==== Proof.FoldHost.lean ====
/-
  The kernel program's host operations, read back. @main runs five stretches of host operations around its two kernel
  regions; the generated frame names the TensorCore's buffer contents at each boundary (`W0` at launch, … `W7` at the
  return), each a fold of the one before. Read through that fold:

  * the first stretch leaves the edge slots' sources and destinations (the edge list's two rows, each followed by the self
    loops) and, with the call that follows it, dinv = deg^(-1/2) where the degree is positive and 0 elsewhere;
  * no later stretch and no region writes those three buffers or an argument, so every later boundary finds them as
    they were left (a region changes only its own result array);
  * the stretch after the first region is the first layer's gather, scale, scatter-add, bias and rectifier of what it
    reads, and the stretch after the second region the second layer's gather, scale, scatter-add and bias.

  Each statement is an identity of terms between the fold at a buffer and the corresponding function of `Cert.Gcn`
  applied to the fold at the buffers the stretch reads; no operation is opened. Stated for any float family.
-/
import proofs.«155514_j79388175499492_1_alg».proof.Proof.Gen.KernelIdeal.Frame
import proofs.«155514_j79388175499492_1_alg».proof.Proof.Gcn
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- No operation of the named stretch writes the buffer: each operation's one result buffer is another reference. -/
local macro "no_write_in " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-! ## What the first stretch leaves -/

/-- The edge slots' sources after the first stretch: row 0 of the edge list, then the self loops. -/
theorem sources_first (c : Dev nD) :
    W1 m ρ c (Proc.devRef .tc main_v3) = Cert.Gcn.sources (m ((c : Thread nD τ).loc main_arg1)) := by
  show StableHlo.after hostOps0 (W0 m ρ c) (Proc.devRef .tc main_v3) = _
  after_results
  rfl

/-- The edge slots' destinations after the first stretch: row 1 of the edge list, then the self loops. -/
theorem destinations_first (c : Dev nD) :
    W1 m ρ c (Proc.devRef .tc main_v6) = Cert.Gcn.destinations (m ((c : Thread nD τ).loc main_arg1)) := by
  show StableHlo.after hostOps0 (W0 m ρ c) (Proc.devRef .tc main_v6) = _
  after_results
  rfl

/-- dinv at the first region's entry: deg^(-1/2) where the degree of the destinations is positive, 0 elsewhere. -/
theorem invSqrtDegree_entry (c : Dev nD) :
    W2 m ρ c (Proc.devRef .tc main_v14) = Cert.Gcn.invSqrtDegree (Cert.Gcn.destinations (m ((c : Thread nD τ).loc main_arg1))) := by
  show StableHlo.after hostOps0_1 (StableHlo.after hostOps0 (W0 m ρ c)) (Proc.devRef .tc main_v14) = _
  after_results_simp
  -- the destinations sit inside a concatenate's operand list, where only a rewrite reaches: a few reads of the stretch's
  -- first operations
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  rfl

/-! ## What nothing later writes -/

theorem sources_2 (c : Dev nD) : W2 m ρ c (Proc.devRef .tc main_v3) = W1 m ρ c (Proc.devRef .tc main_v3) := by no_write_in hostOps0_1
theorem destinations_2 (c : Dev nD) : W2 m ρ c (Proc.devRef .tc main_v6) = W1 m ρ c (Proc.devRef .tc main_v6) := by no_write_in hostOps0_1

/-- At the first region's exit: the sources, the destinations, dinv. -/
theorem sources_3 (c : Dev nD) : W3 m ρ c (Proc.devRef .tc main_v3) = Cert.Gcn.sources (m ((c : Thread nD τ).loc main_arg1)) :=
  (W3_of_ne m ρ c main_v3 (by decide)).trans ((sources_2 m ρ c).trans (sources_first m ρ c))
theorem destinations_3 (c : Dev nD) : W3 m ρ c (Proc.devRef .tc main_v6) = Cert.Gcn.destinations (m ((c : Thread nD τ).loc main_arg1)) :=
  (W3_of_ne m ρ c main_v6 (by decide)).trans ((destinations_2 m ρ c).trans (destinations_first m ρ c))
theorem invSqrtDegree_3 (c : Dev nD) :
    W3 m ρ c (Proc.devRef .tc main_v14) = Cert.Gcn.invSqrtDegree (Cert.Gcn.destinations (m ((c : Thread nD τ).loc main_arg1))) :=
  (W3_of_ne m ρ c main_v14 (by decide)).trans (invSqrtDegree_entry m ρ c)

theorem sources_4 (c : Dev nD) : W4 m ρ c (Proc.devRef .tc main_v3) = W3 m ρ c (Proc.devRef .tc main_v3) := by no_write_in hostOps1
theorem destinations_4 (c : Dev nD) : W4 m ρ c (Proc.devRef .tc main_v6) = W3 m ρ c (Proc.devRef .tc main_v6) := by no_write_in hostOps1
theorem invSqrtDegree_4 (c : Dev nD) : W4 m ρ c (Proc.devRef .tc main_v14) = W3 m ρ c (Proc.devRef .tc main_v14) := by no_write_in hostOps1
theorem sources_5 (c : Dev nD) : W5 m ρ c (Proc.devRef .tc main_v3) = W4 m ρ c (Proc.devRef .tc main_v3) := by no_write_in hostOps1_1
theorem destinations_5 (c : Dev nD) : W5 m ρ c (Proc.devRef .tc main_v6) = W4 m ρ c (Proc.devRef .tc main_v6) := by no_write_in hostOps1_1
theorem invSqrtDegree_5 (c : Dev nD) : W5 m ρ c (Proc.devRef .tc main_v14) = W4 m ρ c (Proc.devRef .tc main_v14) := by no_write_in hostOps1_1

/-- At the second region's exit: the sources, the destinations, dinv. -/
theorem sources_6 (c : Dev nD) : W6 m ρ c (Proc.devRef .tc main_v3) = Cert.Gcn.sources (m ((c : Thread nD τ).loc main_arg1)) :=
  (W6_of_ne m ρ c main_v3 (by decide)).trans ((sources_5 m ρ c).trans ((sources_4 m ρ c).trans (sources_3 m ρ c)))
theorem destinations_6 (c : Dev nD) : W6 m ρ c (Proc.devRef .tc main_v6) = Cert.Gcn.destinations (m ((c : Thread nD τ).loc main_arg1)) :=
  (W6_of_ne m ρ c main_v6 (by decide)).trans ((destinations_5 m ρ c).trans ((destinations_4 m ρ c).trans (destinations_3 m ρ c)))
theorem invSqrtDegree_6 (c : Dev nD) :
    W6 m ρ c (Proc.devRef .tc main_v14) = Cert.Gcn.invSqrtDegree (Cert.Gcn.destinations (m ((c : Thread nD τ).loc main_arg1))) :=
  (W6_of_ne m ρ c main_v14 (by decide)).trans ((invSqrtDegree_5 m ρ c).trans ((invSqrtDegree_4 m ρ c).trans (invSqrtDegree_3 m ρ c)))

/-! ## The arguments where they are read -/

theorem x_1 (c : Dev nD) : W1 m ρ c (Proc.devRef .tc main_arg0) = W0 m ρ c (Proc.devRef .tc main_arg0) := by no_write_in hostOps0
theorem w1_1 (c : Dev nD) : W1 m ρ c (Proc.devRef .tc main_arg2) = W0 m ρ c (Proc.devRef .tc main_arg2) := by no_write_in hostOps0
theorem b1_1 (c : Dev nD) : W1 m ρ c (Proc.devRef .tc main_arg3) = W0 m ρ c (Proc.devRef .tc main_arg3) := by no_write_in hostOps0
theorem w2_1 (c : Dev nD) : W1 m ρ c (Proc.devRef .tc main_arg4) = W0 m ρ c (Proc.devRef .tc main_arg4) := by no_write_in hostOps0
theorem b2_1 (c : Dev nD) : W1 m ρ c (Proc.devRef .tc main_arg5) = W0 m ρ c (Proc.devRef .tc main_arg5) := by no_write_in hostOps0
theorem x_2' (c : Dev nD) : W2 m ρ c (Proc.devRef .tc main_arg0) = W1 m ρ c (Proc.devRef .tc main_arg0) := by no_write_in hostOps0_1
theorem w1_2' (c : Dev nD) : W2 m ρ c (Proc.devRef .tc main_arg2) = W1 m ρ c (Proc.devRef .tc main_arg2) := by no_write_in hostOps0_1
theorem b1_2' (c : Dev nD) : W2 m ρ c (Proc.devRef .tc main_arg3) = W1 m ρ c (Proc.devRef .tc main_arg3) := by no_write_in hostOps0_1
theorem w2_2' (c : Dev nD) : W2 m ρ c (Proc.devRef .tc main_arg4) = W1 m ρ c (Proc.devRef .tc main_arg4) := by no_write_in hostOps0_1
theorem b2_2' (c : Dev nD) : W2 m ρ c (Proc.devRef .tc main_arg5) = W1 m ρ c (Proc.devRef .tc main_arg5) := by no_write_in hostOps0_1

/-- x and W1 as the first region finds them are the launch's. -/
theorem x_2 (c : Dev nD) : W2 m ρ c (Proc.devRef .tc main_arg0) = m ((c : Thread nD τ).loc main_arg0) :=
  (x_2' m ρ c).trans ((x_1 m ρ c).trans rfl)
theorem w1_2 (c : Dev nD) : W2 m ρ c (Proc.devRef .tc main_arg2) = m ((c : Thread nD τ).loc main_arg2) :=
  (w1_2' m ρ c).trans ((w1_1 m ρ c).trans rfl)

/-- b1 at the first region's exit is the launch's. -/
theorem b1_3 (c : Dev nD) : W3 m ρ c (Proc.devRef .tc main_arg3) = m ((c : Thread nD τ).loc main_arg3) :=
  (W3_of_ne m ρ c main_arg3 (by decide)).trans ((b1_2' m ρ c).trans ((b1_1 m ρ c).trans rfl))

theorem w2_4 (c : Dev nD) : W4 m ρ c (Proc.devRef .tc main_arg4) = W3 m ρ c (Proc.devRef .tc main_arg4) := by no_write_in hostOps1
theorem b2_4 (c : Dev nD) : W4 m ρ c (Proc.devRef .tc main_arg5) = W3 m ρ c (Proc.devRef .tc main_arg5) := by no_write_in hostOps1
theorem w2_5' (c : Dev nD) : W5 m ρ c (Proc.devRef .tc main_arg4) = W4 m ρ c (Proc.devRef .tc main_arg4) := by no_write_in hostOps1_1
theorem b2_5' (c : Dev nD) : W5 m ρ c (Proc.devRef .tc main_arg5) = W4 m ρ c (Proc.devRef .tc main_arg5) := by no_write_in hostOps1_1

/-- W2 as the second region finds it is the launch's. -/
theorem w2_5 (c : Dev nD) : W5 m ρ c (Proc.devRef .tc main_arg4) = m ((c : Thread nD τ).loc main_arg4) :=
  (w2_5' m ρ c).trans ((w2_4 m ρ c).trans ((W3_of_ne m ρ c main_arg4 (by decide)).trans ((w2_2' m ρ c).trans ((w2_1 m ρ c).trans rfl))))
/-- b2 at the second region's exit is the launch's. -/
theorem b2_6 (c : Dev nD) : W6 m ρ c (Proc.devRef .tc main_arg5) = m ((c : Thread nD τ).loc main_arg5) :=
  (W6_of_ne m ρ c main_arg5 (by decide)).trans ((b2_5' m ρ c).trans ((b2_4 m ρ c).trans ((W3_of_ne m ρ c main_arg5 (by decide)).trans ((b2_2' m ρ c).trans ((b2_1 m ρ c).trans rfl)))))

/-! ## The two aggregation stretches -/

/-- The stretch after the first region, with the rectifier's call: the first layer of what the first region left. -/
theorem first_layer (c : Dev nD) :
    W5 m ρ c (Proc.devRef .tc main_v47)
      = Cert.Gcn.layer64 (W3 m ρ c (Proc.devRef .tc main_v15)) (W3 m ρ c (Proc.devRef .tc main_v3)) (W3 m ρ c (Proc.devRef .tc main_v6))
          (W3 m ρ c (Proc.devRef .tc main_v14)) (W3 m ρ c (Proc.devRef .tc main_arg3)) := by
  show StableHlo.after hostOps1_1 (StableHlo.after hostOps1 (W3 m ρ c)) (Proc.devRef .tc main_v47) = _
  after_results_simp
  rfl

/-- The stretch after the second region: the second layer of what the second region left. -/
theorem second_layer (c : Dev nD) :
    W7 m ρ c (Proc.devRef .tc main_v79)
      = Cert.Gcn.layer32 (W6 m ρ c (Proc.devRef .tc main_v48)) (W6 m ρ c (Proc.devRef .tc main_v3)) (W6 m ρ c (Proc.devRef .tc main_v6))
          (W6 m ρ c (Proc.devRef .tc main_v14)) (W6 m ρ c (Proc.devRef .tc main_arg5)) := by
  show StableHlo.after hostOps2 (W6 m ρ c) (Proc.devRef .tc main_v79) = _
  after_results_simp
  rfl

end Cert.KernelIdeal.Fold

end
-- ==== Proof.Projection0.lean ====
/-
  The first dense projection of the graph convolution, h0 = x · W1: 100000 nodes, 100 input features, 64 output
  features. Entry (n, f) of the product is the sum over the 100 input features k of x[n, k] · W1[k, f].

  The kernel computes it twenty row blocks at a time: grid point t takes rows 5000 t … 5000 t + 4999 of x and the whole
  of W1, rounds both to bfloat16 (a change of float format: the identity on the extended reals), multiplies them into a
  zero accumulator and writes the 5000 × 64 block back to rows 5000 t … 5000 t + 4999 of the result. Into a zero
  accumulator the matrix unit's result is the plain sum of products, so block t of the result is the restriction of the
  whole product to those rows (`written_back`), and since the twenty blocks tile the 100000 rows (`tiled`: row n lies in
  block n / 5000) the array after the region is the whole product (`array_after`). No law of the extended reals beyond
  0 + s = s is used, so nothing here needs the inputs finite.
-/
import proofs.«155514_j79388175499492_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Projection0

open Cert.KernelIdeal Cert.KernelIdeal.Gen

-- the TensorCore's buffers as region 0 finds them
variable (V : (c : Dev nD) → (b : Ref sig .tc) → Buf (Elt Ideal) ((c : Thread nD τ).loc b))

theorem origin : (![0, 0] : Fin 2 → Nat) = fun _ => 0 := funext fun a => by fin_cases a <;> rfl

/-! ## The product, index by index -/

/-- Entry (node of `i`, feature `k`) of the left factor. -/
abbrev nodeFeature (i : S100000x64.Idx) (k : Fin 100) : S100000x100.Idx := fun a => match a with
  | ⟨0, _⟩ => ⟨(i 0).val, (i 0).isLt⟩
  | ⟨1, _⟩ => ⟨k.val, k.isLt⟩
/-- Entry (feature `k`, output feature of `i`) of the right factor. -/
abbrev featureOut (i : S100000x64.Idx) (k : Fin 100) : S100x64.Idx := fun a => match a with
  | ⟨0, _⟩ => ⟨k.val, k.isLt⟩
  | ⟨1, _⟩ => ⟨(i 1).val, (i 1).isLt⟩

/-- x · w at an index: the node's row of x against the output feature's column of w. -/
def product (x : S100000x100.Idx → EReal) (w : S100x64.Idx → EReal) : S100000x64.Idx → EReal :=
  fun i => ∑ k : Fin 100, x (nodeFeature i k) * w (featureOut i k)

/-! ## One block's product -/

/-- The same two entries inside a block of 5000 nodes. -/
abbrev blockNodeFeature (j : S5000x64.Idx) (k : Fin 100) : S5000x100.Idx := fun a => match a with
  | ⟨0, _⟩ => ⟨(j 0).val, (j 0).isLt⟩
  | ⟨1, _⟩ => ⟨k.val, k.isLt⟩
abbrev blockFeatureOut (j : S5000x64.Idx) (k : Fin 100) : S100x64.Idx := fun a => match a with
  | ⟨0, _⟩ => ⟨k.val, k.isLt⟩
  | ⟨1, _⟩ => ⟨(j 1).val, (j 1).isLt⟩

/-- The left operand of the block's matrix product is read at (row of `j`, contracted `q`) … -/
theorem lhs_row (j : S5000x64.Idx) (q : dot_S5000x100_S100x64_S5000x64_1_0_0_1_n_n.contr.Idx) :
    (dot_S5000x100_S100x64_S5000x64_1_0_0_1_n_n.lhsIdx j q 0).val = (j 0).val := by
  unfold DotDims.lhsIdx
  rw [dif_neg (show ¬(0 : Fin S5000x100.rank) ∈ dot_S5000x100_S100x64_S5000x64_1_0_0_1_n_n.lhsBatch by decide), dif_pos (show (0 : Fin S5000x100.rank) ∈ dot_S5000x100_S100x64_S5000x64_1_0_0_1_n_n.lhsNonContracting by decide)]
  rfl
theorem lhs_contracted (j : S5000x64.Idx) (q : dot_S5000x100_S100x64_S5000x64_1_0_0_1_n_n.contr.Idx) :
    (dot_S5000x100_S100x64_S5000x64_1_0_0_1_n_n.lhsIdx j q 1).val = (q ⟨0, by decide⟩).val :=
  dot_S5000x100_S100x64_S5000x64_1_0_0_1_n_n.lhsIdx_val_of_single rfl j q
/-- … and the right operand at (contracted `q`, column of `j`). -/
theorem rhs_contracted (j : S5000x64.Idx) (q : dot_S5000x100_S100x64_S5000x64_1_0_0_1_n_n.contr.Idx) :
    (dot_S5000x100_S100x64_S5000x64_1_0_0_1_n_n.rhsIdx j q 0).val = (q ⟨0, by decide⟩).val :=
  dot_S5000x100_S100x64_S5000x64_1_0_0_1_n_n.rhsIdx_val_of_single rfl j q
theorem rhs_column (j : S5000x64.Idx) (q : dot_S5000x100_S100x64_S5000x64_1_0_0_1_n_n.contr.Idx) :
    (dot_S5000x100_S100x64_S5000x64_1_0_0_1_n_n.rhsIdx j q 1).val = (j 1).val := by
  unfold DotDims.rhsIdx
  rw [dif_neg (show ¬(1 : Fin S100x64.rank) ∈ dot_S5000x100_S100x64_S5000x64_1_0_0_1_n_n.rhsBatch by decide), dif_pos (show (1 : Fin S100x64.rank) ∈ dot_S5000x100_S100x64_S5000x64_1_0_0_1_n_n.rhsNonContracting by decide)]
  rfl

/-- What the body stores for a block: rounding to bfloat16 is the identity on the extended reals and the matrix unit adds
    the sum of products onto a zero accumulator, so entry `j` is the block row of `j` against the column of `j`. -/
theorem block_product (xb : Vec Ideal S5000x100 .f32) (wb : Vec Ideal S100x64 .f32) (j : S5000x64.Idx) :
    k0_pay1 (F := Ideal) xb wb j = ∑ k : Fin 100, xb (blockNodeFeature j k) * wb (blockFeatureOut j k) := by
  unfold k0_pay1
  refine (Ideal.matmul_constant_zero_apply dot_S5000x100_S100x64_S5000x64_1_0_0_1_n_n none _ _ j).trans ?_
  rw [← Equiv.sum_comp (ValueIdx.contrEquiv1 dot_S5000x100_S100x64_S5000x64_1_0_0_1_n_n 100 rfl rfl).symm]
  refine Finset.sum_congr rfl fun k _ => ?_
  have hk := ValueIdx.contrEquiv1_symm_val dot_S5000x100_S100x64_S5000x64_1_0_0_1_n_n 100 rfl rfl k
  have el : dot_S5000x100_S100x64_S5000x64_1_0_0_1_n_n.lhsIdx j ((ValueIdx.contrEquiv1 dot_S5000x100_S100x64_S5000x64_1_0_0_1_n_n 100 rfl rfl).symm k) = blockNodeFeature j k := funext fun a => Fin.ext (by
    match a with
    | ⟨0, _⟩ => exact lhs_row _ _
    | ⟨1, _⟩ => exact (lhs_contracted _ _).trans hk)
  have er : dot_S5000x100_S100x64_S5000x64_1_0_0_1_n_n.rhsIdx j ((ValueIdx.contrEquiv1 dot_S5000x100_S100x64_S5000x64_1_0_0_1_n_n 100 rfl rfl).symm k) = blockFeatureOut j k := funext fun a => Fin.ext (by
    match a with
    | ⟨0, _⟩ => exact (rhs_contracted _ _).trans hk
    | ⟨1, _⟩ => exact rhs_column _ _)
  rw [el, er]
  rfl

/-! ## The blocks the pipeline hands the body -/

/-- Where the grid puts each window, decided over the twenty points: x's and the result's blocks move down the rows with
    the point, W1's block stays. -/
theorem placement : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point `t`'s block of x is rows 5000 t … 5000 t + 4999 of x. -/
theorem x_block (c : Dev nD) (t : Fin cfg0.N) (y : S5000x100.Idx) (r : S100000x100.Idx)
    (h0 : (r 0).val = 5000 * t.val + (y 0).val) (h1 : (r 1).val = (y 1).val) :
    (iblk0 V c 0 t : Vec Ideal S5000x100 .f32) y = (V c main_arg0 : S100000x100.Idx → EReal) r := by
  obtain ⟨e0, e1, -, -, -, -⟩ := placement t
  unfold iblk0
  rw [View.read_apply]
  show V c main_arg0 _ = V c main_arg0 _
  congr 1
  funext a
  apply Fin.ext
  match a with
  | ⟨0, _⟩ => show win0_0.index t 0 * 5000 + 1 * (y 0).val = (r 0).val; rw [e0, h0]; omega
  | ⟨1, _⟩ => show win0_0.index t 1 * 100 + 1 * (y 1).val = (r 1).val; rw [e1, h1]; omega

/-- Every point's block of W1 is the whole of W1. -/
theorem w_block (c : Dev nD) (t : Fin cfg0.N) (y : S100x64.Idx) (r : S100x64.Idx)
    (h0 : (r 0).val = (y 0).val) (h1 : (r 1).val = (y 1).val) :
    (iblk0 V c 1 t : Vec Ideal S100x64 .f32) y = (V c main_arg2 : S100x64.Idx → EReal) r := by
  obtain ⟨-, -, e2, e3, -, -⟩ := placement t
  unfold iblk0
  rw [View.read_apply]
  show V c main_arg2 _ = V c main_arg2 _
  congr 1
  funext a
  apply Fin.ext
  match a with
  | ⟨0, _⟩ => show win0_1.index t 0 * 100 + 1 * (y 0).val = (r 0).val; rw [e2, h0]; omega
  | ⟨1, _⟩ => show win0_1.index t 1 * 64 + 1 * (y 1).val = (r 1).val; rw [e3, h1]; omega

/-! ## What a point writes back, and the array after the region -/

/-- Point `t` writes back block `t` of the whole product of the arrays as the region finds them. -/
theorem written_back (c : Dev nD) (t : Fin cfg0.N) :
    (dat0 V c).flushed 2 t = ((cfg0.win 2).blk t).view.read (Elt Ideal) (product (V c main_arg0) (V c main_arg2)) := by
  obtain ⟨-, -, -, -, e4, e5⟩ := placement t
  show (cfg0.win 2).cut (grid0.coords t) ((dat0 V c).after 2 t) = _
  rw [after0_2]
  unfold out0_2
  rw [View.canon_unit_zero origin]
  simp only [View.ld_unit_zero (S := S5000x100) origin, View.ld_unit_zero (S := S100x64) origin]
  funext j
  show k0_pay1 (F := Ideal) (iblk0 V c 0 t) (iblk0 V c 1 t) j = product (V c main_arg0) (V c main_arg2) (((cfg0.win 2).blk t).view.emb j)
  refine (block_product (iblk0 V c 0 t) (iblk0 V c 1 t) j).trans ?_
  unfold product
  refine Finset.sum_congr rfl fun k _ => ?_
  have hrow : ((((cfg0.win 2).blk t).view.emb j) 0).val = 5000 * t.val + (j 0).val := by
    show win0_2.index t 0 * 5000 + 1 * (j 0).val = _; rw [e4]; omega
  have hcol : ((((cfg0.win 2).blk t).view.emb j) 1).val = (j 1).val := by
    show win0_2.index t 1 * 64 + 1 * (j 1).val = _; rw [e5]; omega
  rw [x_block V c t (blockNodeFeature j k) (nodeFeature (((cfg0.win 2).blk t).view.emb j) k) hrow rfl,
    w_block V c t (blockFeatureOut j k) (featureOut (((cfg0.win 2).blk t).view.emb j) k) rfl hcol]

/-- An index of the result is in point `t`'s block iff each coordinate is in the block's range on its axis. -/
theorem in_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v15).slice (win0_2.rect t)).set ↔ _
  rw [View.set_slice_whole, Rect.mem_set_unit]
  exact Iff.rfl

/-- The twenty blocks tile the result: node n is in block n / 5000. -/
theorem tiled (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  have ht : (i 0).val / 5000 < cfg0.N := by rw [hN]; omega
  refine ⟨⟨(i 0).val / 5000, ht⟩, flush0_2 _, ?_⟩
  obtain ⟨-, -, -, -, e4, e5⟩ := placement ⟨(i 0).val / 5000, ht⟩
  rw [in_block]
  intro a
  match a with
  | ⟨0, _⟩ =>
    show win0_2.index ⟨(i 0).val / 5000, ht⟩ 0 * 5000 ≤ (i 0).val ∧ (i 0).val < win0_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ 1 * 64 ≤ (i 1).val ∧ (i 1).val < win0_2.index ⟨(i 0).val / 5000, ht⟩ 1 * 64 + 64
    rw [e5]; omega

/-- After the region the result array holds the whole product of x and W1 as the region found them. -/
theorem array_after (c : Dev nD) : (dat0 V c).arrAt 2 cfg0.N = product (V c main_arg0) (V c main_arg2) :=
  (dat0 V c).arrAt_eq_of_cover 2 (product (V c main_arg0) (V c main_arg2)) (fun t _ => written_back V c t) tiled

end Cert.KernelIdeal.Projection0

end
-- ==== Proof.Projection1.lean ====
/-
  The second dense projection of the graph convolution, h1 = a · W2, where a is the rectified first layer: 100000
  nodes, 64 features in, 32 features out. Entry (n, f) of the product is the sum over the 64 features k of
  a[n, k] · W2[k, f].

  The kernel computes it as it does the first projection: grid point t takes rows 5000 t … 5000 t + 4999 of a (through a
  shape cast onto the same shape, the identity) and the whole of W2, rounds both to bfloat16 (the identity on the
  extended reals), multiplies them into a zero accumulator and writes the 5000 × 32 block back to the same rows of the
  result. So block t of the result is the restriction of the whole product to those rows (`written_back`), the twenty
  blocks tile the 100000 rows (`tiled`), and the array after the region is the whole product (`array_after`). Nothing here
  needs the inputs finite.
-/
import proofs.«155514_j79388175499492_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Projection1

open Cert.KernelIdeal Cert.KernelIdeal.Gen

-- the TensorCore's buffers as region 1 finds them
variable (V : (c : Dev nD) → (b : Ref sig .tc) → Buf (Elt Ideal) ((c : Thread nD τ).loc b))

theorem origin : (![0, 0] : Fin 2 → Nat) = fun _ => 0 := funext fun a => by fin_cases a <;> rfl

/-! ## The product, index by index -/

/-- Entry (node of `i`, feature `k`) of the left factor. -/
abbrev nodeFeature (i : S100000x32.Idx) (k : Fin 64) : S100000x64.Idx := fun a => match a with
  | ⟨0, _⟩ => ⟨(i 0).val, (i 0).isLt⟩
  | ⟨1, _⟩ => ⟨k.val, k.isLt⟩
/-- Entry (feature `k`, output feature of `i`) of the right factor. -/
abbrev featureOut (i : S100000x32.Idx) (k : Fin 64) : S64x32.Idx := fun a => match a with
  | ⟨0, _⟩ => ⟨k.val, k.isLt⟩
  | ⟨1, _⟩ => ⟨(i 1).val, (i 1).isLt⟩

/-- a · w at an index: the node's row of a against the output feature's column of w. -/
def product (x : S100000x64.Idx → EReal) (w : S64x32.Idx → EReal) : S100000x32.Idx → EReal :=
  fun i => ∑ k : Fin 64, x (nodeFeature i k) * w (featureOut i k)

/-! ## One block's product -/

/-- The same two entries inside a block of 5000 nodes. -/
abbrev blockNodeFeature (j : S5000x32.Idx) (k : Fin 64) : S5000x64.Idx := fun a => match a with
  | ⟨0, _⟩ => ⟨(j 0).val, (j 0).isLt⟩
  | ⟨1, _⟩ => ⟨k.val, k.isLt⟩
abbrev blockFeatureOut (j : S5000x32.Idx) (k : Fin 64) : S64x32.Idx := fun a => match a with
  | ⟨0, _⟩ => ⟨k.val, k.isLt⟩
  | ⟨1, _⟩ => ⟨(j 1).val, (j 1).isLt⟩

/-- The left operand of the block's matrix product is read at (row of `j`, contracted `q`) … -/
theorem lhs_row (j : S5000x32.Idx) (q : dot_S5000x64_S64x32_S5000x32_1_0_0_1_n_n.contr.Idx) :
    (dot_S5000x64_S64x32_S5000x32_1_0_0_1_n_n.lhsIdx j q 0).val = (j 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem lhs_contracted (j : S5000x32.Idx) (q : dot_S5000x64_S64x32_S5000x32_1_0_0_1_n_n.contr.Idx) :
    (dot_S5000x64_S64x32_S5000x32_1_0_0_1_n_n.lhsIdx j q 1).val = (q ⟨0, by decide⟩).val :=
  dot_S5000x64_S64x32_S5000x32_1_0_0_1_n_n.lhsIdx_val_of_single rfl j q
/-- … and the right operand at (contracted `q`, column of `j`). -/
theorem rhs_contracted (j : S5000x32.Idx) (q : dot_S5000x64_S64x32_S5000x32_1_0_0_1_n_n.contr.Idx) :
    (dot_S5000x64_S64x32_S5000x32_1_0_0_1_n_n.rhsIdx j q 0).val = (q ⟨0, by decide⟩).val :=
  dot_S5000x64_S64x32_S5000x32_1_0_0_1_n_n.rhsIdx_val_of_single rfl j q
theorem rhs_column (j : S5000x32.Idx) (q : dot_S5000x64_S64x32_S5000x32_1_0_0_1_n_n.contr.Idx) :
    (dot_S5000x64_S64x32_S5000x32_1_0_0_1_n_n.rhsIdx j q 1).val = (j 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- What the body stores for a block: a shape cast onto the same shape and rounding to bfloat16 are the identity on the
    extended reals and the matrix unit adds the sum of products onto a zero accumulator, so entry `j` is the block row of `j`
    against the column of `j`. -/
theorem block_product (xb : Vec Ideal S5000x64 .f32) (wb : Vec Ideal S64x32 .f32) (j : S5000x32.Idx) :
    k1_pay1 (F := Ideal) xb wb j = ∑ k : Fin 64, xb (blockNodeFeature j k) * wb (blockFeatureOut j k) := by
  unfold k1_pay1
  refine (Ideal.matmul_constant_zero_apply dot_S5000x64_S64x32_S5000x32_1_0_0_1_n_n none _ _ j).trans ?_
  rw [← Equiv.sum_comp (ValueIdx.contrEquiv1 dot_S5000x64_S64x32_S5000x32_1_0_0_1_n_n 64 rfl rfl).symm]
  refine Finset.sum_congr rfl fun k _ => ?_
  have hk := ValueIdx.contrEquiv1_symm_val dot_S5000x64_S64x32_S5000x32_1_0_0_1_n_n 64 rfl rfl k
  have el : dot_S5000x64_S64x32_S5000x32_1_0_0_1_n_n.lhsIdx j ((ValueIdx.contrEquiv1 dot_S5000x64_S64x32_S5000x32_1_0_0_1_n_n 64 rfl rfl).symm k) = blockNodeFeature j k := funext fun a => Fin.ext (by
    match a with
    | ⟨0, _⟩ => exact lhs_row _ _
    | ⟨1, _⟩ => exact (lhs_contracted _ _).trans hk)
  have er : dot_S5000x64_S64x32_S5000x32_1_0_0_1_n_n.rhsIdx j ((ValueIdx.contrEquiv1 dot_S5000x64_S64x32_S5000x32_1_0_0_1_n_n 64 rfl rfl).symm k) = blockFeatureOut j k := funext fun a => Fin.ext (by
    match a with
    | ⟨0, _⟩ => exact (rhs_contracted _ _).trans hk
    | ⟨1, _⟩ => exact rhs_column _ _)
  rw [el, er]
  show (shapeCast S5000x64 xb shapeCasts_S5000x64_S5000x64) (blockNodeFeature j k) * wb (blockFeatureOut j k) = _
  rw [shapeCast_self]

/-! ## The blocks the pipeline hands the body -/

/-- Where the grid puts each window, decided over the twenty points: a's and the result's blocks move down the rows with
    the point, W2's block stays. -/
theorem placement : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Point `t`'s block of a is rows 5000 t … 5000 t + 4999 of a. -/
theorem x_block (c : Dev nD) (t : Fin cfg1.N) (y : S5000x64.Idx) (r : S100000x64.Idx)
    (h0 : (r 0).val = 5000 * t.val + (y 0).val) (h1 : (r 1).val = (y 1).val) :
    (iblk1 V c 0 t : Vec Ideal S5000x64 .f32) y = (V c main_v47 : S100000x64.Idx → EReal) r := by
  obtain ⟨e0, e1, -, -, -, -⟩ := placement t
  unfold iblk1
  rw [View.read_apply]
  show V c main_v47 _ = V c main_v47 _
  congr 1
  funext a
  apply Fin.ext
  match a with
  | ⟨0, _⟩ => show win1_0.index t 0 * 5000 + 1 * (y 0).val = (r 0).val; rw [e0, h0]; omega
  | ⟨1, _⟩ => show win1_0.index t 1 * 64 + 1 * (y 1).val = (r 1).val; rw [e1, h1]; omega

/-- Every point's block of W2 is the whole of W2. -/
theorem w_block (c : Dev nD) (t : Fin cfg1.N) (y : S64x32.Idx) (r : S64x32.Idx)
    (h0 : (r 0).val = (y 0).val) (h1 : (r 1).val = (y 1).val) :
    (iblk1 V c 1 t : Vec Ideal S64x32 .f32) y = (V c main_arg4 : S64x32.Idx → EReal) r := by
  obtain ⟨-, -, e2, e3, -, -⟩ := placement t
  unfold iblk1
  rw [View.read_apply]
  show V c main_arg4 _ = V c main_arg4 _
  congr 1
  funext a
  apply Fin.ext
  match a with
  | ⟨0, _⟩ => show win1_1.index t 0 * 64 + 1 * (y 0).val = (r 0).val; rw [e2, h0]; omega
  | ⟨1, _⟩ => show win1_1.index t 1 * 32 + 1 * (y 1).val = (r 1).val; rw [e3, h1]; omega

/-! ## What a point writes back, and the array after the region -/

/-- Point `t` writes back block `t` of the whole product of the arrays as the region finds them. -/
theorem written_back (c : Dev nD) (t : Fin cfg1.N) :
    (dat1 V c).flushed 2 t = ((cfg1.win 2).blk t).view.read (Elt Ideal) (product (V c main_v47) (V c main_arg4)) := by
  obtain ⟨-, -, -, -, e4, e5⟩ := placement t
  show (cfg1.win 2).cut (grid1.coords t) ((dat1 V c).after 2 t) = _
  rw [after1_2]
  unfold out1_2
  rw [View.canon_unit_zero origin]
  simp only [View.ld_unit_zero (S := S5000x64) origin, View.ld_unit_zero (S := S64x32) origin]
  funext j
  show k1_pay1 (F := Ideal) (iblk1 V c 0 t) (iblk1 V c 1 t) j = product (V c main_v47) (V c main_arg4) (((cfg1.win 2).blk t).view.emb j)
  refine (block_product (iblk1 V c 0 t) (iblk1 V c 1 t) j).trans ?_
  unfold product
  refine Finset.sum_congr rfl fun k _ => ?_
  have hrow : ((((cfg1.win 2).blk t).view.emb j) 0).val = 5000 * t.val + (j 0).val := by
    show win1_2.index t 0 * 5000 + 1 * (j 0).val = _; rw [e4]; omega
  have hcol : ((((cfg1.win 2).blk t).view.emb j) 1).val = (j 1).val := by
    show win1_2.index t 1 * 32 + 1 * (j 1).val = _; rw [e5]; omega
  rw [x_block V c t (blockNodeFeature j k) (nodeFeature (((cfg1.win 2).blk t).view.emb j) k) hrow rfl,
    w_block V c t (blockFeatureOut j k) (featureOut (((cfg1.win 2).blk t).view.emb j) k) rfl hcol]

/-- An index of the result is in point `t`'s block iff each coordinate is in the block's range on its axis. -/
theorem in_block (t : Fin cfg1.N) (i : S100000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole main_v48).slice (win1_2.rect t)).set ↔ _
  rw [View.set_slice_whole, Rect.mem_set_unit]
  exact Iff.rfl

/-- The twenty blocks tile the result: node n is in block n / 5000. -/
theorem tiled (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 20 := N_1
  have ht : (i 0).val / 5000 < cfg1.N := by rw [hN]; omega
  refine ⟨⟨(i 0).val / 5000, ht⟩, flush1_2 _, ?_⟩
  obtain ⟨-, -, -, -, e4, e5⟩ := placement ⟨(i 0).val / 5000, ht⟩
  rw [in_block]
  intro a
  match a with
  | ⟨0, _⟩ =>
    show win1_2.index ⟨(i 0).val / 5000, ht⟩ 0 * 5000 ≤ (i 0).val ∧ (i 0).val < win1_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ 1 * 32 ≤ (i 1).val ∧ (i 1).val < win1_2.index ⟨(i 0).val / 5000, ht⟩ 1 * 32 + 32
    rw [e5]; omega

/-- After the region the result array holds the whole product of a and W2 as the region found them. -/
theorem array_after (c : Dev nD) : (dat1 V c).arrAt 2 cfg1.N = product (V c main_v47) (V c main_arg4) :=
  (dat1 V c).arrAt_eq_of_cover 2 (product (V c main_v47) (V c main_arg4)) (fun t _ => written_back V c t) tiled

end Cert.KernelIdeal.Projection1

end
-- ==== Proof.FoldValue.lean ====
/-
  The kernel program's result on the extended reals, as one function of the arguments.

  Read back through @main (`FoldHost.lean`), the result buffer is the second layer of what the second region left, over the
  sources, destinations and dinv of the first stretch and the bias b2 as launched. The second region leaves the product
  of what it found in its input array with W2 (`Projection1.array_after`), and what it found there is the first layer
  of what the first region left, over the same sources, destinations and dinv and the bias b1; the first region leaves
  the product of x with W1 (`Projection0.array_after`). Put together, the result is `Cert.Gcn.forward` over the two regions'
  products, of the six arguments as launched.
-/
import proofs.«155514_j79388175499492_1_alg».proof.Proof.FoldHost
import proofs.«155514_j79388175499492_1_alg».proof.Proof.Projection0
import proofs.«155514_j79388175499492_1_alg».proof.Proof.Projection1

set_option maxRecDepth 16384

noncomputable section

namespace Cert.KernelIdeal.Fold

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- At the first region's exit its result array holds x · W1 of the arguments as launched. -/
theorem first_projection (c : Dev nD) :
    W3 m ρ c (Proc.devRef .tc main_v15)
      = Projection0.product (m ((c : Thread nD τ).loc main_arg0)) (m ((c : Thread nD τ).loc main_arg2)) := by
  refine (W3_arr m ρ c 2).trans ?_
  rw [Projection0.array_after (V2 m ρ) c]
  show Projection0.product (W2 m ρ c (Proc.devRef .tc main_arg0)) (W2 m ρ c (Proc.devRef .tc main_arg2)) = _
  rw [x_2 m ρ c, w1_2 m ρ c]

/-- What the second region finds in its input array: the rectified first layer of x · W1. -/
theorem rectified (c : Dev nD) :
    W5 m ρ c (Proc.devRef .tc main_v47)
      = Cert.Gcn.layer64 (F := Ideal) (Projection0.product (m ((c : Thread nD τ).loc main_arg0)) (m ((c : Thread nD τ).loc main_arg2)))
          (Cert.Gcn.sources (m ((c : Thread nD τ).loc main_arg1))) (Cert.Gcn.destinations (m ((c : Thread nD τ).loc main_arg1)))
          (Cert.Gcn.invSqrtDegree (Cert.Gcn.destinations (m ((c : Thread nD τ).loc main_arg1)))) (m ((c : Thread nD τ).loc main_arg3)) := by
  rw [first_layer m ρ c, first_projection m ρ c, sources_3 m ρ c, destinations_3 m ρ c, invSqrtDegree_3 m ρ c, b1_3 m ρ c]

/-- At the second region's exit its result array holds the product of what it found in its input array with W2. -/
theorem second_projection (c : Dev nD) :
    W6 m ρ c (Proc.devRef .tc main_v48)
      = Projection1.product (W5 m ρ c (Proc.devRef .tc main_v47)) (m ((c : Thread nD τ).loc main_arg4)) := by
  refine (W6_arr m ρ c 2).trans ?_
  rw [Projection1.array_after (V5 m ρ) c]
  show Projection1.product (W5 m ρ c (Proc.devRef .tc main_v47)) (W5 m ρ c (Proc.devRef .tc main_arg4)) = _
  rw [w2_5 m ρ c]

/-- THE KERNEL PROGRAM'S RESULT: the two-layer graph convolution over the two regions' products. -/
theorem result (c : Dev nD) :
    W7 m ρ c (Proc.devRef .tc main_v79)
      = Cert.Gcn.forward (F := Ideal) Projection0.product Projection1.product
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [second_layer m ρ c, second_projection m ρ c, rectified m ρ c, sources_6 m ρ c, destinations_6 m ρ c, invSqrtDegree_6 m ρ c, b2_6 m ρ c]
  rfl

end Cert.KernelIdeal.Fold

end
-- ==== Proof.RefGcn.lean ====
/-
  The reference program's result is the two-layer graph convolution `Cert.Gcn.forward` with the host's `dot_general` for
  both dense projections. The reference's run states its result as one composed term of the arguments; unfolding
  `forward` and its parts gives that term again, operation for operation: the reference computes the degree and dinv
  once per layer, from the same destinations, so both layers' copies are the one `invSqrtDegree (destinations ei)`.
  An identity of terms, for any float family; nothing is opened.
-/
import proofs.«155514_j79388175499492_1_alg».proof.Proof.RefRun
import proofs.«155514_j79388175499492_1_alg».proof.Proof.Gcn

noncomputable section

namespace Cert.ReferenceIdeal.Spec

open Cert.ReferenceIdeal Cert.ReferenceIdeal.Gen Idealize.ShloMosaic Idealize.ShloMosaic.TcCoe Idealize.SL.Sem
open Cert.Gcn (Floats Ints)

variable {F : FTy → Type} [FloatOps F]

/-- The reference's first projection: x · W1 as the host's `dot_general`, 100 features contracted. -/
abbrev dense1 : Floats F S100000x100 → Floats F S100x64 → Floats F S100000x64 :=
  fun l r => Host.dotGeneral dot_S100000x100_S100x64_S100000x64_1_0_0_1_n_n none l r

/-- The reference's second projection: a · W2 as the host's `dot_general`, 64 features contracted. -/
abbrev dense2 : Floats F S100000x64 → Floats F S64x32 → Floats F S100000x32 :=
  fun l r => Host.dotGeneral dot_S100000x64_S64x32_S100000x32_1_0_0_1_n_n none l r

set_option maxRecDepth 16384 in
/-- The reference run's result term is `forward` over the host's two `dot_general`s, of the arguments as launched. -/
theorem result_eq (m : (ℓ : Loc nD τ sig) → Buf (Elt F) ℓ) (c : Dev nD) :
    Cert.ReferenceIdeal.ValueP.res_main_v87 m c
      = Cert.Gcn.forward (F := F) dense1 dense2 (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) := by
  unfold Cert.ReferenceIdeal.ValueP.res_main_v87 Cert.Gcn.forward Cert.Gcn.layer32 Cert.Gcn.layer64 Cert.Gcn.slotNorm
    Cert.Gcn.invSqrtDegree Cert.Gcn.degree Cert.Gcn.fromEnd Cert.Gcn.sources Cert.Gcn.destinations
  rfl

end Cert.ReferenceIdeal.Spec

end
-- ==== Proof.Products.lean ====
/-
  The one place the two programs differ: each dense projection is a kernel region on one side and the host's
  `dot_general` on the other. On the extended reals both are the same plain sum: the kernel's product at entry (n, f)
  is Σ_k x[n, k] · w[k, f] (`Projection0.product`, `Projection1.product`: what the region's blocks add up to), and the
  host's `dot_general` with the second axis of the left operand contracted against the first of the right is, at
  `Ideal`, zero plus the sum over the contracted index of the same products; the contracted index (a one-axis index)
  is renumbered 0 … K − 1. Sums are only reindexed, never split or scaled, so no finiteness is used.
-/
import proofs.«155514_j79388175499492_1_alg».proof.Proof.Projection0
import proofs.«155514_j79388175499492_1_alg».proof.Proof.Projection1
import proofs.«155514_j79388175499492_1_alg».proof.Proof.RefGcn
import Idealize.ShloMosaic.Lib.ValueIdx
import Idealize.ShloMosaic.PureOps.Ideal.Laws

noncomputable section

namespace Cert.Products

open Cert.ReferenceIdeal Cert.ReferenceIdeal.Gen Idealize.ShloMosaic
open Cert.Gcn (Floats Ints)
open Cert.ReferenceIdeal.Spec (dense1 dense2)

/-! ## 100 features → 64 -/

theorem lhs1_row (i : S100000x64.Idx) (q : dot_S100000x100_S100x64_S100000x64_1_0_0_1_n_n.contr.Idx) :
    (dot_S100000x100_S100x64_S100000x64_1_0_0_1_n_n.lhsIdx i q 0).val = (i 0).val := by
  unfold DotDims.lhsIdx
  rw [dif_neg (show ¬(0 : Fin S100000x100.rank) ∈ dot_S100000x100_S100x64_S100000x64_1_0_0_1_n_n.lhsBatch by decide), dif_pos (show (0 : Fin S100000x100.rank) ∈ dot_S100000x100_S100x64_S100000x64_1_0_0_1_n_n.lhsNonContracting by decide)]
  rfl
theorem lhs1_contracted (i : S100000x64.Idx) (q : dot_S100000x100_S100x64_S100000x64_1_0_0_1_n_n.contr.Idx) :
    (dot_S100000x100_S100x64_S100000x64_1_0_0_1_n_n.lhsIdx i q 1).val = (q ⟨0, by decide⟩).val :=
  dot_S100000x100_S100x64_S100000x64_1_0_0_1_n_n.lhsIdx_val_of_single rfl i q
theorem rhs1_contracted (i : S100000x64.Idx) (q : dot_S100000x100_S100x64_S100000x64_1_0_0_1_n_n.contr.Idx) :
    (dot_S100000x100_S100x64_S100000x64_1_0_0_1_n_n.rhsIdx i q 0).val = (q ⟨0, by decide⟩).val :=
  dot_S100000x100_S100x64_S100000x64_1_0_0_1_n_n.rhsIdx_val_of_single rfl i q
theorem rhs1_column (i : S100000x64.Idx) (q : dot_S100000x100_S100x64_S100000x64_1_0_0_1_n_n.contr.Idx) :
    (dot_S100000x100_S100x64_S100000x64_1_0_0_1_n_n.rhsIdx i q 1).val = (i 1).val := by
  unfold DotDims.rhsIdx
  rw [dif_neg (show ¬(1 : Fin S100x64.rank) ∈ dot_S100000x100_S100x64_S100000x64_1_0_0_1_n_n.rhsBatch by decide), dif_pos (show (1 : Fin S100x64.rank) ∈ dot_S100000x100_S100x64_S100000x64_1_0_0_1_n_n.rhsNonContracting by decide)]
  rfl

/-- The first region's product is the host's `dot_general` of the same operands. -/
theorem product1_eq (x : Floats Ideal S100000x100) (w : Floats Ideal S100x64) :
    Cert.KernelIdeal.Projection0.product x w = dense1 (F := Ideal) x w := by
  funext i
  symm
  show Host.dotGeneral (F := Ideal) dot_S100000x100_S100x64_S100000x64_1_0_0_1_n_n none (x : FVec Ideal S100000x100 .f32) (w : FVec Ideal S100x64 .f32) i = _
  unfold Cert.KernelIdeal.Projection0.product
  simp only [Host.dotGeneral]
  rw [Ideal.dotGeneral_apply, ← Equiv.sum_comp (ValueIdx.contrEquiv1 dot_S100000x100_S100x64_S100000x64_1_0_0_1_n_n 100 rfl rfl).symm]
  refine Finset.sum_congr rfl fun k _ => ?_
  have hk := ValueIdx.contrEquiv1_symm_val dot_S100000x100_S100x64_S100000x64_1_0_0_1_n_n 100 rfl rfl k
  have el : dot_S100000x100_S100x64_S100000x64_1_0_0_1_n_n.lhsIdx i ((ValueIdx.contrEquiv1 dot_S100000x100_S100x64_S100000x64_1_0_0_1_n_n 100 rfl rfl).symm k) = Cert.KernelIdeal.Projection0.nodeFeature i k := funext fun a => Fin.ext (by
    match a with
    | ⟨0, _⟩ => exact lhs1_row _ _
    | ⟨1, _⟩ => exact (lhs1_contracted _ _).trans hk)
  have er : dot_S100000x100_S100x64_S100000x64_1_0_0_1_n_n.rhsIdx i ((ValueIdx.contrEquiv1 dot_S100000x100_S100x64_S100000x64_1_0_0_1_n_n 100 rfl rfl).symm k) = Cert.KernelIdeal.Projection0.featureOut i k := funext fun a => Fin.ext (by
    match a with
    | ⟨0, _⟩ => exact (rhs1_contracted _ _).trans hk
    | ⟨1, _⟩ => exact rhs1_column _ _)
  rw [el, er]

/-! ## 64 features → 32 -/

theorem lhs2_row (i : S100000x32.Idx) (q : dot_S100000x64_S64x32_S100000x32_1_0_0_1_n_n.contr.Idx) :
    (dot_S100000x64_S64x32_S100000x32_1_0_0_1_n_n.lhsIdx i q 0).val = (i 0).val := by
  unfold DotDims.lhsIdx
  rw [dif_neg (show ¬(0 : Fin S100000x64.rank) ∈ dot_S100000x64_S64x32_S100000x32_1_0_0_1_n_n.lhsBatch by decide), dif_pos (show (0 : Fin S100000x64.rank) ∈ dot_S100000x64_S64x32_S100000x32_1_0_0_1_n_n.lhsNonContracting by decide)]
  rfl
theorem lhs2_contracted (i : S100000x32.Idx) (q : dot_S100000x64_S64x32_S100000x32_1_0_0_1_n_n.contr.Idx) :
    (dot_S100000x64_S64x32_S100000x32_1_0_0_1_n_n.lhsIdx i q 1).val = (q ⟨0, by decide⟩).val :=
  dot_S100000x64_S64x32_S100000x32_1_0_0_1_n_n.lhsIdx_val_of_single rfl i q
theorem rhs2_contracted (i : S100000x32.Idx) (q : dot_S100000x64_S64x32_S100000x32_1_0_0_1_n_n.contr.Idx) :
    (dot_S100000x64_S64x32_S100000x32_1_0_0_1_n_n.rhsIdx i q 0).val = (q ⟨0, by decide⟩).val :=
  dot_S100000x64_S64x32_S100000x32_1_0_0_1_n_n.rhsIdx_val_of_single rfl i q
theorem rhs2_column (i : S100000x32.Idx) (q : dot_S100000x64_S64x32_S100000x32_1_0_0_1_n_n.contr.Idx) :
    (dot_S100000x64_S64x32_S100000x32_1_0_0_1_n_n.rhsIdx i q 1).val = (i 1).val := by
  unfold DotDims.rhsIdx
  rw [dif_neg (show ¬(1 : Fin S64x32.rank) ∈ dot_S100000x64_S64x32_S100000x32_1_0_0_1_n_n.rhsBatch by decide), dif_pos (show (1 : Fin S64x32.rank) ∈ dot_S100000x64_S64x32_S100000x32_1_0_0_1_n_n.rhsNonContracting by decide)]
  rfl

/-- The second region's product is the host's `dot_general` of the same operands. -/
theorem product2_eq (a : Floats Ideal S100000x64) (w : Floats Ideal S64x32) :
    Cert.KernelIdeal.Projection1.product a w = dense2 (F := Ideal) a w := by
  funext i
  symm
  show Host.dotGeneral (F := Ideal) dot_S100000x64_S64x32_S100000x32_1_0_0_1_n_n none (a : FVec Ideal S100000x64 .f32) (w : FVec Ideal S64x32 .f32) i = _
  unfold Cert.KernelIdeal.Projection1.product
  simp only [Host.dotGeneral]
  rw [Ideal.dotGeneral_apply, ← Equiv.sum_comp (ValueIdx.contrEquiv1 dot_S100000x64_S64x32_S100000x32_1_0_0_1_n_n 64 rfl rfl).symm]
  refine Finset.sum_congr rfl fun k _ => ?_
  have hk := ValueIdx.contrEquiv1_symm_val dot_S100000x64_S64x32_S100000x32_1_0_0_1_n_n 64 rfl rfl k
  have el : dot_S100000x64_S64x32_S100000x32_1_0_0_1_n_n.lhsIdx i ((ValueIdx.contrEquiv1 dot_S100000x64_S64x32_S100000x32_1_0_0_1_n_n 64 rfl rfl).symm k) = Cert.KernelIdeal.Projection1.nodeFeature i k := funext fun a' => Fin.ext (by
    match a' with
    | ⟨0, _⟩ => exact lhs2_row _ _
    | ⟨1, _⟩ => exact (lhs2_contracted _ _).trans hk)
  have er : dot_S100000x64_S64x32_S100000x32_1_0_0_1_n_n.rhsIdx i ((ValueIdx.contrEquiv1 dot_S100000x64_S64x32_S100000x32_1_0_0_1_n_n 64 rfl rfl).symm k) = Cert.KernelIdeal.Projection1.featureOut i k := funext fun a' => Fin.ext (by
    match a' with
    | ⟨0, _⟩ => exact (rhs2_contracted _ _).trans hk
    | ⟨1, _⟩ => exact rhs2_column _ _)
  rw [el, er]

end Cert.Products

end
-- ==== Proof.lean ====
/-
  A two-layer graph convolution over 100000 nodes and 1600000 edges (plus one self loop per node):
      out = Â · relu(Â · (x · W1) + b1) · W2 + b2,     Â = D^(-1/2) (A + I) D^(-1/2),
  with the normalised aggregation Â · h done edge slot by edge slot (gather the source's row, scale by
  dinv[source] · dinv[destination], scatter-add by destination).

  The two programs share every host operation of the aggregation; they differ in the two dense projections — a kernel
  region per projection (twenty row blocks of 5000 nodes, bfloat16 operands, a zero accumulator) against the host's
  `dot_general` — and in that the reference computes the degree once per layer where the kernel computes it once.

  * Frames. The word-level kernel program and its idealization have generated frame certificates. The reference has no
    kernel; its frame is its run with the result dropped.
  * Preserves. The idealization rewrote no operation: nothing to show.
  * Algebraic. On the extended reals both programs end at `Cert.Gcn.forward` of the arguments: the kernel program over
    its two regions' products (`Fold.result`, read off the launch with the result kept), the reference over the host's two
    `dot_general`s (`Spec.result_eq`), and a region's product IS the `dot_general`: rounding to bfloat16 is the identity
    there, and a product accumulated onto zero is the plain sum over the shared features, which is what `dot_general`
    denotes (`Products.product1_eq`, `product2_eq`). Only a reindexing of finite sums is used — no distributivity, no
    cancellation — so the precondition (finite inputs) is never opened.
-/
import proofs.«155514_j79388175499492_1_alg».proof.Defs
import proofs.«155514_j79388175499492_1_alg».proof.Proof.Gen.Kernel
import proofs.«155514_j79388175499492_1_alg».proof.Proof.Gen.Kernel.Skeleton
import proofs.«155514_j79388175499492_1_alg».proof.Proof.Gen.Kernel.Launch
import proofs.«155514_j79388175499492_1_alg».proof.Proof.Gen.Kernel.Points
import proofs.«155514_j79388175499492_1_alg».proof.Proof.Gen.Kernel.Frame
import proofs.«155514_j79388175499492_1_alg».proof.Proof.Gen.KernelIdeal
import proofs.«155514_j79388175499492_1_alg».proof.Proof.Gen.KernelIdeal.Skeleton
import proofs.«155514_j79388175499492_1_alg».proof.Proof.Gen.KernelIdeal.Launch
import proofs.«155514_j79388175499492_1_alg».proof.Proof.Gen.KernelIdeal.Points
import proofs.«155514_j79388175499492_1_alg».proof.Proof.Gen.KernelIdeal.Frame
import proofs.«155514_j79388175499492_1_alg».proof.Proof.Gen.ReferenceIdeal
import proofs.«155514_j79388175499492_1_alg».proof.Proof.Gen.Pre_finite_inputs
import proofs.«155514_j79388175499492_1_alg».proof.Proof.KernelRun
import proofs.«155514_j79388175499492_1_alg».proof.Proof.FoldValue
import proofs.«155514_j79388175499492_1_alg».proof.Proof.RefRun
import proofs.«155514_j79388175499492_1_alg».proof.Proof.RefGcn
import proofs.«155514_j79388175499492_1_alg».proof.Proof.Products
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end at the two-layer graph convolution of the arguments; the kernel's two products are the host's two
    `dot_general`s on the extended reals. -/
theorem algebraic : Cert.algebraic_KernelIdeal_ReferenceIdeal := by
  intro m ρ m' ρ' _ hagree
  refine ⟨fun c => Cert.Gcn.forward (F := Ideal) Cert.KernelIdeal.Projection0.product Cert.KernelIdeal.Projection1.product
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Fold.result m ρ c), (h c).2⟩) (Cert.KernelIdeal.GenP.run m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5⟩ := hagree c
    have e1 : Cert.ReferenceIdeal.Spec.dense1 (F := Ideal) = Cert.KernelIdeal.Projection0.product :=
      funext fun x => funext fun w => (Cert.Products.product1_eq x w).symm
    have e2 : Cert.ReferenceIdeal.Spec.dense2 (F := Ideal) = Cert.KernelIdeal.Projection1.product :=
      funext fun a => funext fun w => (Cert.Products.product2_eq a w).symm
    rw [Cert.ReferenceIdeal.Spec.result_eq, h0, h1, h2, h3, h4, h5, e1, e2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
